-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x1024 : S1024x1.Broadcasts S1024x1024
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .f32 = 32 ∨ (Rect.block (s := S4096) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Contraction.lean ====
/-
  The mathematics of the certificate, free of any program.

  For activations `A` (rows by 4096), weights `W` (4096 output channels by 4096), per-channel scales `s` and a
  per-channel bias `b`, the result at row `ρ` and channel `o` is

      (∑ x : Fin 4096, A (ρ, x) * (W (o, x) * s o)) + b o

  on the extended reals. The contraction axis is cut into four consecutive segments of 1024; summing the four
  segment sums in order is the whole sum, because addition on the extended reals is a commutative monoid (no
  finiteness is used anywhere). The rows are either the 8192 rows of the flattened activations or the pairs
  (batch, position) of the [4, 2048, 4096] array: row `2048 * β + σ` of the one is pair `(β, σ)` of the other.
-/
import Idealize.ShloMosaic.Lib.ValueIdx
import Idealize.ShloMosaic.Lib.Pipeline.Value
import Idealize.ShloMosaic.PureOps.Ideal.Laws

noncomputable section

open scoped BigOperators

namespace Cert.Contraction

open Idealize.ShloMosaic Idealize.ShloMosaic.ValueIdx

/-- Entry `r` of segment `b` (taken modulo four) of a 4096-long axis. -/
def seg4 (b : ℕ) (r : Fin 1024) : Fin 4096 :=
  ⟨(b % 4) * 1024 + r.val, by have := r.isLt; have := Nat.mod_lt b (by norm_num : 4 > 0); omega⟩

/-- Entry `p` of row block `i` (taken modulo eight) of an 8192-long axis. -/
def seg8 (i : ℕ) (p : Fin 1024) : Fin 8192 :=
  ⟨(i % 8) * 1024 + p.val, by have := p.isLt; have := Nat.mod_lt i (by norm_num : 8 > 0); omega⟩

/-- Row `2048 * β + σ` of the flattened activations. -/
def flatRow (β : Fin 4) (σ : Fin 2048) : Fin 8192 :=
  ⟨β.val * 2048 + σ.val, by have := β.isLt; have := σ.isLt; omega⟩

theorem seg4_val (b : ℕ) (r : Fin 1024) : (seg4 b r).val = (b % 4) * 1024 + r.val := rfl
theorem seg8_val (i : ℕ) (p : Fin 1024) : (seg8 i p).val = (i % 8) * 1024 + p.val := rfl
theorem flatRow_val (β : Fin 4) (σ : Fin 2048) : (flatRow β σ).val = β.val * 2048 + σ.val := rfl

/-- The four segment sums, in order, make the sum over the whole axis. -/
theorem sum_segments {M : Type*} [AddCommMonoid M] (f : Fin 4096 → M) :
    ∑ b ∈ Finset.range 4, ∑ r : Fin 1024, f (seg4 b r) = ∑ x : Fin 4096, f x := by
  rw [Finset.sum_range]
  rw [← Fintype.sum_prod_type' (f := fun (b : Fin 4) (r : Fin 1024) => f (seg4 b.val r))]
  refine Fintype.sum_equiv (finProdFinEquiv : Fin 4 × Fin 1024 ≃ Fin 4096) _ _ (fun x => congrArg f (Fin.ext ?_))
  have h1 := x.1.isLt
  simp only [seg4, finProdFinEquiv, Equiv.coe_fn_mk]
  omega

abbrev ActFlat : Shape := ⟨2, ![8192, 4096]⟩
abbrev Act3 : Shape := ⟨3, ![4, 2048, 4096]⟩
abbrev Wt : Shape := ⟨2, ![4096, 4096]⟩
abbrev Chan : Shape := ⟨1, ![4096]⟩

/-- One product of the contraction: the activation times the scaled weight. -/
def term (A : ActFlat.Idx → EReal) (W : Wt.Idx → EReal) (s : Chan.Idx → EReal) (ρ : Fin 8192) (o : Fin 4096)
    (x : Fin 4096) : EReal :=
  A (ix2 ρ x) * (W (ix2 o x) * s (ix1 o))

/-- The contraction restricted to segment `b`. -/
def segSum (A : ActFlat.Idx → EReal) (W : Wt.Idx → EReal) (s : Chan.Idx → EReal) (ρ : Fin 8192) (o : Fin 4096)
    (b : ℕ) : EReal :=
  ∑ r : Fin 1024, term A W s ρ o (seg4 b r)

/-- The running sum over the first `n` segments. -/
def partialSum (A : ActFlat.Idx → EReal) (W : Wt.Idx → EReal) (s : Chan.Idx → EReal) (ρ : Fin 8192) (o : Fin 4096)
    (n : ℕ) : EReal :=
  ∑ b ∈ Finset.range n, segSum A W s ρ o b

theorem partialSum_one (A : ActFlat.Idx → EReal) (W : Wt.Idx → EReal) (s : Chan.Idx → EReal) (ρ : Fin 8192)
    (o : Fin 4096) : partialSum A W s ρ o 1 = segSum A W s ρ o 0 := by
  unfold partialSum; rw [Finset.sum_range_one]

theorem partialSum_succ (A : ActFlat.Idx → EReal) (W : Wt.Idx → EReal) (s : Chan.Idx → EReal) (ρ : Fin 8192)
    (o : Fin 4096) (n : ℕ) : partialSum A W s ρ o (n + 1) = partialSum A W s ρ o n + segSum A W s ρ o n := by
  unfold partialSum; rw [Finset.sum_range_succ]

/-- After the fourth segment the running sum is the whole contraction. -/
theorem partialSum_four (A : ActFlat.Idx → EReal) (W : Wt.Idx → EReal) (s : Chan.Idx → EReal) (ρ : Fin 8192)
    (o : Fin 4096) : partialSum A W s ρ o 4 = ∑ x : Fin 4096, term A W s ρ o x :=
  sum_segments (term A W s ρ o)

/-- The result over the flattened rows. -/
def flatResult (A : ActFlat.Idx → EReal) (W : Wt.Idx → EReal) (s b : Chan.Idx → EReal) : ActFlat.Idx → EReal :=
  fun j => (∑ x : Fin 4096, term A W s (j 0) (j 1) x) + b (ix1 (j 1))

/-- The result over (batch, position, channel). -/
def result (A : Act3.Idx → EReal) (W : Wt.Idx → EReal) (s b : Chan.Idx → EReal) : Act3.Idx → EReal :=
  fun i => (∑ x : Fin 4096, A (ix3 (i 0) (i 1) x) * (W (ix2 (i 2) x) * s (ix1 (i 2)))) + b (ix1 (i 2))

/-- Flattening [4, 2048, 4096] to [8192, 4096] keeps the row-major position: row `2048 β + σ` is pair `(β, σ)`. -/
theorem flatten_apply {α : Type} (x : Act3.Idx → α) (h : Act3.ShapeCasts ActFlat) (β : Fin 4) (σ : Fin 2048)
    (o : Fin 4096) : shapeCast ActFlat x h (ix2 (flatRow β σ) o) = x (ix3 β σ o) :=
  shapeCast_apply x h _ _ (by
    rw [Shape.rowMajor_val_three, Shape.rowMajor_val_two]
    show (β.val * 2048 + σ.val) * 4096 + o.val = (β.val * 2048 + σ.val) * 4096 + o.val
    rfl)

/-- Unflattening reads pair `(β, σ)` at row `2048 β + σ`. -/
theorem unflatten_apply {α : Type} (y : ActFlat.Idx → α) (h : ActFlat.ShapeCasts Act3) (β : Fin 4) (σ : Fin 2048)
    (o : Fin 4096) : shapeCast Act3 y h (ix3 β σ o) = y (ix2 (flatRow β σ) o) :=
  shapeCast_apply y h _ _ (by
    rw [Shape.rowMajor_val_three, Shape.rowMajor_val_two]
    show (β.val * 2048 + σ.val) * 4096 + o.val = (β.val * 2048 + σ.val) * 4096 + o.val
    rfl)

/-- The flat result of the flattened activations, unflattened, is the result over (batch, position, channel). -/
theorem unflatten_flatResult (A : Act3.Idx → EReal) (W : Wt.Idx → EReal) (s b : Chan.Idx → EReal)
    (h : Act3.ShapeCasts ActFlat) (h' : ActFlat.ShapeCasts Act3) :
    shapeCast Act3 (flatResult (shapeCast ActFlat A h) W s b) h' = result A W s b := by
  funext i
  obtain ⟨β, σ, o, rfl⟩ : ∃ (β : Fin 4) (σ : Fin 2048) (o : Fin 4096), i = ix3 β σ o := ⟨i 0, i 1, i 2, eq_ix3 i⟩
  rw [unflatten_apply]
  unfold flatResult result term
  refine congrArg (· + b (ix1 o)) (Finset.sum_congr rfl fun x _ => ?_)
  show shapeCast ActFlat A h (ix2 (flatRow β σ) x) * _ = _
  rw [flatten_apply]

end Cert.Contraction

end
-- ==== Proof.KernelBlocks.lean ====
/-
  Where each block of the kernel's step sits in its array.

  The 128 grid points are the triples (row block i < 8, channel block j < 4, contraction segment k < 4) in
  lexicographic order: point `t` has `i = t / 16`, `j = t / 4 mod 4`, `k = t mod 4`. At point `t` the step reads
  rows `1024 i ..` and columns `1024 k ..` of the flattened activations, rows `1024 j ..` and columns `1024 k ..`
  of the weights, and entries `1024 j ..` of the scales and of the bias; it writes rows `1024 i ..`, columns
  `1024 j ..` of the flat result. The flattened activations are the [4, 2048, 4096] argument reshaped.
-/
import proofs.«172999_j58128087384232_1_alg».proof.Proof.Gen.KernelIdeal.Frame
import proofs.«172999_j58128087384232_1_alg».proof.Proof.Contraction
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Blocks

open Cert.KernelIdeal Cert.KernelIdeal.Gen Idealize.ShloMosaic.ValueIdx Cert.Contraction

variable {F : FTy → Type} [FloatOps F]
variable (m : (ℓ : Loc nD τ sig) → Buf (Elt F) ℓ)

/-- The four arrays the kernel's windows read, as the call finds them. -/
abbrev actArr (c : Dev nD) : Vec F S8192x4096 .f32 := V m c main_v0
abbrev wtArr (c : Dev nD) : Vec F S4096x4096 .f32 := V m c main_arg1
abbrev scaleArr (c : Dev nD) : Vec F S4096 .f32 := V m c main_arg2
abbrev biasArr (c : Dev nD) : Vec F S4096 .f32 := V m c main_arg3

/-- Their blocks at a grid point. -/
abbrev actBlk (c : Dev nD) (t : Fin cfg0.N) : Vec F S1024x1024 .f32 := iblk m c 0 t
abbrev wtBlk (c : Dev nD) (t : Fin cfg0.N) : Vec F S1024x1024 .f32 := iblk m c 1 t
abbrev scaleBlk (c : Dev nD) (t : Fin cfg0.N) : Vec F S1024 .f32 := iblk m c 2 t
abbrev biasBlk (c : Dev nD) (t : Fin cfg0.N) : Vec F S1024 .f32 := iblk m c 3 t

/-- The block indices of the five windows at point `t`. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 1) = t.val / 4 % 4 ∧ win0_3.index t (0 : Fin 1) = t.val / 4 % 4
    ∧ win0_4.index t (0 : Fin 2) = t.val / 16 ∧ win0_4.index t (1 : Fin 2) = t.val / 4 % 4 :=
  (by decide +kernel : ∀ t : Fin grid0.N, _)

theorem lt_N (t : Fin cfg0.N) : t.val < 128 := lt_of_lt_of_eq t.isLt (show cfg0.N = 128 from N_0)

/-- The activation block at `(p, r)` is the flat array at row `1024 i + p`, column `1024 k + r`. -/
theorem actBlk_apply (c : Dev nD) (t : Fin cfg0.N) (p r : Fin 1024) :
    actBlk m c t (ix2 p r) = actArr m c (ix2 (seg8 (t.val / 16) p) (seg4 (t.val % 4) r)) := by
  have hN := lt_N t
  have hi := idx_facts t
  show iblk m c 0 t (ix2 p r) = V m c main_v0 _
  unfold iblk
  rw [View.read_apply]
  show V m c main_v0 _ = V m c main_v0 _
  congr 1
  funext a
  apply Fin.ext
  match a with
  | ⟨0, _⟩ =>
    show win0_0.index t 0 * 1024 + 1 * p.val = (t.val / 16 % 8) * 1024 + p.val
    rw [hi.1]; omega
  | ⟨1, _⟩ =>
    show win0_0.index t 1 * 1024 + 1 * r.val = (t.val % 4 % 4) * 1024 + r.val
    rw [hi.2.1]; omega

/-- The weight block at `(q, r)` is the weight array at row `1024 j + q`, column `1024 k + r`. -/
theorem wtBlk_apply (c : Dev nD) (t : Fin cfg0.N) (q r : Fin 1024) :
    wtBlk m c t (ix2 q r) = wtArr m c (ix2 (seg4 (t.val / 4) q) (seg4 (t.val % 4) r)) := by
  have hN := lt_N t
  have hi := idx_facts t
  show iblk m c 1 t (ix2 q r) = V m c main_arg1 _
  unfold iblk
  rw [View.read_apply]
  show V m c main_arg1 _ = V m c main_arg1 _
  congr 1
  funext a
  apply Fin.ext
  match a with
  | ⟨0, _⟩ =>
    show win0_1.index t 0 * 1024 + 1 * q.val = (t.val / 4 % 4) * 1024 + q.val
    rw [hi.2.2.1]; omega
  | ⟨1, _⟩ =>
    show win0_1.index t 1 * 1024 + 1 * r.val = (t.val % 4 % 4) * 1024 + r.val
    rw [hi.2.2.2.1]; omega

/-- The scale block at `q` is the scales at `1024 j + q`. -/
theorem scaleBlk_apply (c : Dev nD) (t : Fin cfg0.N) (q : Fin 1024) :
    scaleBlk m c t (ix1 q) = scaleArr m c (ix1 (seg4 (t.val / 4) q)) := by
  have hi := idx_facts t
  show iblk m c 2 t (ix1 q) = V m c main_arg2 _
  unfold iblk
  rw [View.read_apply]
  show V m c main_arg2 _ = V m c main_arg2 _
  congr 1
  funext a
  apply Fin.ext
  match a with
  | ⟨0, _⟩ =>
    show win0_2.index t 0 * 1024 + 1 * q.val = (t.val / 4 % 4) * 1024 + q.val
    rw [hi.2.2.2.2.1]; omega

/-- The bias block at `q` is the bias at `1024 j + q`. -/
theorem biasBlk_apply (c : Dev nD) (t : Fin cfg0.N) (q : Fin 1024) :
    biasBlk m c t (ix1 q) = biasArr m c (ix1 (seg4 (t.val / 4) q)) := by
  have hi := idx_facts t
  show iblk m c 3 t (ix1 q) = V m c main_arg3 _
  unfold iblk
  rw [View.read_apply]
  show V m c main_arg3 _ = V m c main_arg3 _
  congr 1
  funext a
  apply Fin.ext
  match a with
  | ⟨0, _⟩ =>
    show win0_3.index t 0 * 1024 + 1 * q.val = (t.val / 4 % 4) * 1024 + q.val
    rw [hi.2.2.2.2.2.1]; omega

/-- The call finds the activations flattened: the one host operation before it is the reshape. -/
theorem actArr_eq (c : Dev nD) :
    actArr m c = shapeCast S8192x4096 (m ((c : Thread nD τ).loc main_arg0)) shapeCasts_S4x2048x4096_S8192x4096 := by
  show StableHlo.after hostOps0 (fun b => m (c, b)) (Proc.devRef .tc main_v0) = _
  after_results
  rfl

theorem wtArr_eq (c : Dev nD) : wtArr m c = m ((c : Thread nD τ).loc main_arg1) := V_main_arg1 m c
theorem scaleArr_eq (c : Dev nD) : scaleArr m c = m ((c : Thread nD τ).loc main_arg2) := V_main_arg2 m c
theorem biasArr_eq (c : Dev nD) : biasArr m c = m ((c : Thread nD τ).loc main_arg3) := V_main_arg3 m c

end Cert.KernelIdeal.Blocks

end
-- ==== Proof.KernelPieces.lean ====
/-
  What one step of the kernel leaves behind, as pure terms of what it read.

  The step at a grid point reads a block `x0` of activations, a block `x1` of weights, the matching `x2` of scales
  and `x3` of biases, and the accumulator `acc` carried from the point before. In every case the accumulator it
  leaves is `acc + x0 · (x1 * x2)ᵀ` (the term `k0_pay2`), where on the first point of a row of four the carried
  accumulator is replaced by the zero block (`k0_pay1`); on the last point of the four it also leaves, in the
  output block, the new accumulator plus the bias broadcast along rows (`k0_pay3`). Each statement holds for any
  float instance: it only says which stored term is read back.
-/
import proofs.«172999_j58128087384232_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A middle point of a row of four: the accumulator becomes `acc + x0 · (x1 * x2)ᵀ`. -/
theorem acc_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024 .f32) (h5 : a5.IsWhole)
    (a6 : Memref sig .tc .vmem S1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i)
    (x0 x1 : Vec F S1024x1024 .f32) (x2 x3 : Vec F S1024 .f32) (xs0 : Vec F S1024x1024 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h8.read_unread,
    View.ld_unit_zero (S := S1024x1024) hz, View.ld_unit_zero (S := S1024) hz1]

/-- The first point of a row of four: the accumulator is first set to the zero block, then updated. -/
theorem acc_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024 .f32) (h5 : a5.IsWhole)
    (a6 : Memref sig .tc .vmem S1024 .f32) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x0 x1 : Vec F S1024x1024 .f32) (x2 x3 : Vec F S1024 .f32) :
    sout0_A_0 c i a3 h3 a4 h4 a5 h5 a6 h6 a7 h7 a8 h8 hc0 hc1 x0 x1 x2 x3 = k0_pay2 x0 x1 x2 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread,
    View.ld_unit_zero (S := S1024x1024) hz, View.ld_unit_zero (S := S1024) hz1]

/-- The last point of a row of four: the accumulator is updated as at a middle point, -/
theorem acc_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024 .f32) (h5 : a5.IsWhole)
    (a6 : Memref sig .tc .vmem S1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 x1 : Vec F S1024x1024 .f32) (x2 x3 : Vec F S1024 .f32) (xs0 : Vec F S1024x1024 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h8.read_unread,
    View.ld_unit_zero (S := S1024x1024) hz, View.ld_unit_zero (S := S1024) hz1]

/-- and the output block receives the updated accumulator plus the bias. -/
theorem out_C (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024 .f32) (h5 : a5.IsWhole)
    (a6 : Memref sig .tc .vmem S1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 x1 : Vec F S1024x1024 .f32) (x2 x3 : Vec F S1024 .f32) (xs0 : Vec F S1024x1024 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x1024) hz, View.ld_unit_zero (S := S1024) hz1,
    View.readCov_unit_zero (S := S1024x1024) _ hz]

end Cert.KernelIdeal.Pieces

end
-- ==== Proof.LibDot2T.lean ====
/-
  A matrix product against a transposed right operand, at the ideal instance, read at an entry.

  For two rank-2 operands of shapes [M, K] and [N, K] whose dimension numbers contract the SECOND axis of both, the
  product into a zero accumulator is, at row `p` and column `j`, the plain sum over `a : Fin K` of
  `l (p, a) * r (j, a)` on the extended reals. The dimension numbers enter only through four coordinate facts (which
  coordinate of each operand is the output's and which is the contracted one); a caller proves those four for its
  own record and gets the sum.
-/
import Idealize.ShloMosaic.Lib.ValueIdx
import Idealize.ShloMosaic.PureOps.Ideal.Laws

noncomputable section

namespace Cert.Lib.Dot2T

open Idealize.ShloMosaic Idealize.ShloMosaic.ValueIdx

/-- The contraction sum of a rank-2 product against a transposed right operand, re-indexed from the record's
    one-axis contraction index to `Fin K`: the left operand is read along row `p`, the right along row `j`. -/
theorem contraction_ix2 {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product into the zero accumulator, at the ideal instance, read at `(p, j)`. -/
theorem matmul_zero_ix2 {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2T

end
-- ==== Proof.KernelPayload.lean ====
/-
  The three stored terms of the kernel's step, read at an entry `(p, q)` of a 1024 by 1024 block, on the extended
  reals. At the ideal instance the change of float format before the product is the identity, so:

    the zero block                        is  0,
    the accumulator update                is  acc (p, q) + ∑ r, a (p, r) * (w (q, r) * s q),
    the flushed block                     is  acc (p, q) + b q.

  The scales enter as a column (entry `q` of `s` along row `q` of the weight block), the bias as a row.
-/
import proofs.«172999_j58128087384232_1_alg».proof.Proof.Gen.KernelIdeal.Skeleton
import proofs.«172999_j58128087384232_1_alg».proof.Proof.LibDot2T
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## A vector as a column -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's dimension numbers: both operands contract their second axis -/

theorem lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ## The stored terms at an entry -/

/-- The reset stores zeros. -/
theorem zero_apply (p q : Fin 1024) : k0_pay1 (F := Ideal) (ix2 p q) = 0 := by
  unfold k0_pay1
  simp only [shapeCast_self]
  exact Ideal.ofBits_zero_f32

/-- The update adds, to the carried entry, row `p` of the activations against row `q` of the scaled weights. -/
theorem update_apply (a w : Vec Ideal S1024x1024 .f32) (s : Vec Ideal S1024 .f32) (acc : Vec Ideal S1024x1024 .f32)
    (p q : Fin 1024) :
    k0_pay2 (F := Ideal) a w s acc (ix2 p q)
      = acc (ix2 p q) + ∑ r : Fin 1024, a (ix2 p r) * (w (ix2 q r) * s (ix1 q)) := by
  unfold k0_pay2
  simp only [shapeCast_self]
  refine (addf_apply _ _ _).trans ?_
  refine congrArg (acc (ix2 p q) + ·) ?_
  refine (Cert.Lib.Dot2T.matmul_zero_ix2 (M := 1024) (K := 1024) (N := 1024) dot_S1024x1024_S1024x1024_S1024x1024_1_1_0_0_n_n none rfl rfl
    lhs_dot_0 lhs_dot_1 rhs_dot_0 rhs_dot_1 _ _ p q).trans ?_
  refine Finset.sum_congr rfl fun r _ => ?_
  rw [truncf_apply, truncf_apply, mulf_apply, broadcastTo_a1_ab_apply, shapeCast_a_a1_apply]

/-- The flush adds the bias of column `q`. -/
theorem flush_apply (acc : Vec Ideal S1024x1024 .f32) (b : Vec Ideal S1024 .f32) (p q : Fin 1024) :
    k0_pay3 (F := Ideal) acc b (ix2 p q) = acc (ix2 p q) + b (ix1 q) := by
  unfold k0_pay3
  refine (addf_apply _ _ _).trans ?_
  refine congrArg (acc (ix2 p q) + ·) ?_
  rw [broadcastTo_1b_ab_apply, shapeCast_a_1a_apply]

end Cert.KernelIdeal.Payload

end
-- ==== Proof.KernelAccum.lean ====
/-
  The accumulator across the grid, on the extended reals.

  Fix a row block `i` and a channel block `j`; the four points `k = 0, 1, 2, 3` that share them run one after
  the other. After the point with segment `k` the accumulator holds, at `(p, q)`, the sum over the segments
  `0 .. k` of the products of row `1024 i + p` of the activations with row `1024 j + q` of the scaled weights: the
  first point starts from zero (`0 + x = x`), every later point adds its segment's sum to what the point before
  left. At the last of the four the output block is that accumulator plus the bias of channel `1024 j + q`.
-/
import proofs.«172999_j58128087384232_1_alg».proof.Proof.KernelBlocks
import proofs.«172999_j58128087384232_1_alg».proof.Proof.KernelPieces
import proofs.«172999_j58128087384232_1_alg».proof.Proof.KernelPayload

set_option maxRecDepth 16384

noncomputable section

open scoped BigOperators

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.Contraction Cert.KernelIdeal.Blocks

variable (m : (ℓ : Loc nD τ sig) → Buf (Elt Ideal) ℓ)

/-- What the step at point `t` adds at `(p, q)`: its segment's sum, read in the arrays. -/
theorem step_sum (c : Dev nD) (t : Fin cfg0.N) (p q : Fin 1024) :
    ∑ r : Fin 1024, actBlk m c t (ix2 p r) * (wtBlk m c t (ix2 q r) * scaleBlk m c t (ix1 q))
      = segSum (actArr m c) (wtArr m c) (scaleArr m c) (seg8 (t.val / 16) p) (seg4 (t.val / 4) q) (t.val % 4) := by
  unfold segSum term
  refine Finset.sum_congr rfl fun r _ => ?_
  rw [actBlk_apply, wtBlk_apply, scaleBlk_apply]

/-- At the first of four points the accumulator is that point's segment sum. -/
theorem acc_first (c : Dev nD) (t : Fin cfg0.N) (h0 : t.val % 4 = 0) (p q : Fin 1024) :
    (outsAt0 m c t.val t.isLt).2 (ix2 p q)
      = segSum (actArr m c) (wtArr m c) (scaleArr m c) (seg8 (t.val / 16) p) (seg4 (t.val / 4) q) (t.val % 4) := by
  have h1 : ¬t.val % 4 = 3 := by omega
  rw [outsAt0_A m c t h0 h1]
  dsimp only
  refine (congrFun (Pieces.acc_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  refine (Payload.update_apply (actBlk m c t) (wtBlk m c t) (scaleBlk m c t) (k0_pay1 (F := Ideal)) p q).trans ?_
  rw [Payload.zero_apply, zero_add, step_sum]

/-- At a later point it is what the point before left plus this point's segment sum. -/
theorem acc_next (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + segSum (actArr m c) (wtArr m c) (scaleArr m c) (seg8 (t.val / 16) p) (seg4 (t.val / 4) q) (t.val % 4) := by
  by_cases h1 : t.val % 4 = 3
  · rw [outsAt0_C m c t h0 h1]
    dsimp only
    refine (congrFun (Pieces.acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
    refine (Payload.update_apply (actBlk m c t) (wtBlk m c t) (scaleBlk m c t) (outsAt0 m c (t.val - 1) (Nat.lt_of_le_of_lt (Nat.sub_le _ _) t.isLt)).2 p q).trans ?_
    rw [step_sum]
  · rw [outsAt0_B m c t h0 h1]
    dsimp only
    refine (congrFun (Pieces.acc_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
    refine (Payload.update_apply (actBlk m c t) (wtBlk m c t) (scaleBlk m c t) (outsAt0 m c (t.val - 1) (Nat.lt_of_le_of_lt (Nat.sub_le _ _) t.isLt)).2 p q).trans ?_
    rw [step_sum]

/-- At the last of four points the output block is the accumulator plus the bias. -/
theorem out_last (c : Dev nD) (t : Fin cfg0.N) (h1 : t.val % 4 = 3) (p q : Fin 1024) :
    (outsAt0 m c t.val t.isLt).1 (ix2 p q)
      = (outsAt0 m c t.val t.isLt).2 (ix2 p q) + biasArr m c (ix1 (seg4 (t.val / 4) q)) := by
  have h0 : ¬t.val % 4 = 0 := by omega
  rw [outsAt0_C m c t h0 h1]
  dsimp only
  have eo := Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  have ea := Pieces.acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  refine (congrFun eo (ix2 p q)).trans ?_
  refine (Payload.flush_apply _ (biasBlk m c t) p q).trans ?_
  rw [biasBlk_apply]
  exact congrArg (· + biasArr m c (ix1 (seg4 (t.val / 4) q))) (congrFun ea (ix2 p q)).symm

/-- THE RUNNING SUM: after point `n` the accumulator holds the sum over the segments `0 .. n mod 4`. -/
theorem acc_eq (c : Dev nD) : ∀ (n : ℕ) (h : n < cfg0.N) (p q : Fin 1024),
    (outsAt0 m c n h).2 (ix2 p q)
      = partialSum (actArr m c) (wtArr m c) (scaleArr m c) (seg8 (n / 16) p) (seg4 (n / 4) q) (n % 4 + 1)
  | 0, h, p, q => by
    rw [acc_first m c ⟨0, h⟩ rfl p q]
    exact (partialSum_one _ _ _ _ _).symm
  | n + 1, h, p, q => by
    by_cases h0 : (n + 1) % 4 = 0
    · rw [acc_first m c ⟨n + 1, h⟩ h0 p q]
      show segSum _ _ _ _ _ ((n + 1) % 4) = partialSum _ _ _ _ _ ((n + 1) % 4 + 1)
      rw [h0]
      exact (partialSum_one _ _ _ _ _).symm
    · rw [acc_next m c ⟨n + 1, h⟩ h0 p q]
      show (outsAt0 m c n _).2 (ix2 p q) + segSum _ _ _ (seg8 ((n + 1) / 16) p) (seg4 ((n + 1) / 4) q) ((n + 1) % 4)
        = partialSum _ _ _ (seg8 ((n + 1) / 16) p) (seg4 ((n + 1) / 4) q) ((n + 1) % 4 + 1)
      rw [acc_eq c n _ p q]
      have e16 : (n + 1) / 16 = n / 16 := by omega
      have e4 : (n + 1) / 4 = n / 4 := by omega
      have ek : (n + 1) % 4 = n % 4 + 1 := by omega
      rw [e16, e4, ek]
      exact (partialSum_succ _ _ _ _ _ _).symm

end Cert.KernelIdeal.Accum

end
-- ==== Proof.KernelArray.lean ====
/-
  From the kernel's blocks to its result.

  Only the last point of each four writes its output block back, and that block is the whole contraction (the
  four segments' sums make the sum over the 4096-long axis) plus the bias: block (i, j) of the flat result. The 32
  blocks (i, j) tile the 8192 by 4096 array — entry (ρ, o) lies in block (ρ / 1024, o / 1024) —, so the array ends
  holding the flat result everywhere; the reshape after the call reads it back as (batch, position, channel), and
  the flat result of the flattened activations read that way is the contraction over (batch, position, channel).
-/
import proofs.«172999_j58128087384232_1_alg».proof.Proof.KernelAccum
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem Idealize.ShloMosaic.Tactic
open Idealize.ShloMosaic.Pipeline (Dat)

namespace Cert.KernelIdeal.Result

open Cert.KernelIdeal Cert.KernelIdeal.Gen Idealize.ShloMosaic.ValueIdx Cert.Contraction Cert.KernelIdeal.Blocks

variable (m : (ℓ : Loc nD τ sig) → Buf (Elt Ideal) ℓ) (ρ : Dev nD → PrngReg)

/-- The flat result of the arrays the call finds. -/
abbrev flatOut (c : Dev nD) : Vec Ideal S8192x4096 .f32 := flatResult (actArr m c) (wtArr m c) (scaleArr m c) (biasArr m c)

/-- The output block a last-of-four point leaves is block (i, j) of the flat result. -/
theorem out_block_eq (c : Dev nD) (t : Fin cfg0.N) (h3 : t.val % 4 = 3) :
    ((outsAt0 m c t.val t.isLt).1 : Vec Ideal S1024x1024 .f32)
      = fun y => flatOut m c (ix2 (seg8 (t.val / 16) (y 0)) (seg4 (t.val / 4) (y 1))) := by
  funext y
  obtain ⟨p, q, rfl⟩ : ∃ (p q : Fin 1024), y = ix2 p q := ⟨y 0, y 1, eq_ix2 y⟩
  rw [Accum.out_last m c t h3 p q, Accum.acc_eq m c t.val t.isLt p q]
  have e : t.val % 4 + 1 = 4 := by omega
  rw [e, partialSum_four]
  rfl

/-- What a flushing point writes back is its block of the flat result. -/
theorem flushed_eq (c : Dev nD) (t : Fin cfg0.N) (hf : (cfg0.win 4).flush t = true) :
    (dats m 0 c).flushed 4 t = ((cfg0.win 4).blk t).view.read (Elt Ideal) (flatOut m c) := by
  have h3 : t.val % 4 = 3 := (flush0_4 t).mp hf
  have hN := lt_N t
  have hi := idx_facts t
  show (cfg0.win 4).cut (grid0.coords t) ((dats m 0 c).after 4 t) = _
  rw [after0_4, out_block_eq m c t h3]
  funext y
  show flatOut m c _ = flatOut m c (((cfg0.win 4).blk t).view.emb y)
  congr 1
  funext a
  apply Fin.ext
  match a with
  | ⟨0, _⟩ =>
    show (t.val / 16 % 8) * 1024 + (y 0).val = win0_4.index t 0 * 1024 + 1 * (y 0).val
    rw [hi.2.2.2.2.2.2.1]; omega
  | ⟨1, _⟩ =>
    show (t.val / 4 % 4) * 1024 + (y 1).val = win0_4.index t 1 * 1024 + 1 * (y 1).val
    rw [hi.2.2.2.2.2.2.2]; omega

/-- An entry of the flat array is in point `t`'s block iff each coordinate is in the block's range. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every entry lies in the block of a flushing point: the last of the four points of its (row block, channel block). -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  let t : Fin cfg0.N := ⟨(i 0).val / 1024 * 16 + (i 1).val / 1024 * 4 + 3, by rw [hN]; omega⟩
  have ht : t.val = (i 0).val / 1024 * 16 + (i 1).val / 1024 * 4 + 3 := rfl
  have hi := idx_facts t
  refine ⟨t, (flush0_4 t).mpr (by rw [ht]; omega), ?_⟩
  rw [mem_blk]
  intro a
  match a with
  | ⟨0, _⟩ =>
    show win0_4.index t 0 * 1024 ≤ (i 0).val ∧ (i 0).val < win0_4.index t 0 * 1024 + 1024
    rw [hi.2.2.2.2.2.2.1, ht]; omega
  | ⟨1, _⟩ =>
    show win0_4.index t 1 * 1024 ≤ (i 1).val ∧ (i 1).val < win0_4.index t 1 * 1024 + 1024
    rw [hi.2.2.2.2.2.2.2, ht]; omega

/-- So the flat result array ends holding the flat result. -/
theorem final_flat (c : Dev nD) : (dats m 0 c).arrAt 4 cfg0.N = flatOut m c :=
  (dats m 0 c).arrAt_eq_of_cover 4 (flatOut m c) (flushed_eq m c) covered

/-- The reshape after the call: the program's result is the contraction over (batch, position, channel). -/
theorem tail_eq (c : Dev nD) :
    Pipeline.afterTail₀ cfgs (dats m) 0 (V0 m) [hostOps1] c main_v2
      = Cert.Contraction.result (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = flatOut m c :=
    (Pipeline.withArrays_arr spec0 launch0.win.arr_inj c _ _ 4).trans (final_flat m c)
  show shapeCast S4x2048x4096 (Pipeline.withArrays (cfgs 0).spec c (V0 m c) (fun w => (dats m 0 c).arrAt w (cfgs 0).N) (Proc.devRef .tc main_v1)) shapeCasts_S8192x4096_S4x2048x4096 = _
  rw [e]
  show shapeCast S4x2048x4096 (flatResult (actArr m c) (wtArr m c) (scaleArr m c) (biasArr m c)) shapeCasts_S8192x4096_S4x2048x4096 = _
  rw [actArr_eq, wtArr_eq, scaleArr_eq, biasArr_eq]
  exact unflatten_flatResult _ _ _ _ _ _

/-- THE KERNEL'S RUN at the ideal instance: every weakly fair execution ends with the result buffer at the contraction
    of the four arguments, and the arguments as they were. -/
theorem run : θ_run defs (onTc (τ := τ) (main (F := Ideal))) ⟨m, fun _ => 0, ρ⟩ (fun r => ∀ c : Dev nD,
      r.2.mem ((c.tc : Thread nD τ).loc main_v2)
        = Cert.Contraction.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.ReferenceValue.lean ====
/-
  The reference program's result, index by index: at (batch β, position σ, channel o) it is the sum over the shared
  4096-long axis of the activation times the weight scaled by its channel's scale, plus the channel's bias —
  `Contraction.result` of the four arguments. The scale reaches the weight through two broadcasts (a column, then
  the column along the rows), the bias through two more (a [1, 1, 4096] row, then over batch and position); read at
  an index each is the vector at the channel coordinate.
-/
import proofs.«172999_j58128087384232_1_alg».proof.Defs
import proofs.«172999_j58128087384232_1_alg».proof.Proof.Gen.ReferenceIdeal.Run
import proofs.«172999_j58128087384232_1_alg».proof.Proof.Gen.ReferenceIdeal.Read
import proofs.«172999_j58128087384232_1_alg».proof.Proof.Contraction

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage is the contraction plus the bias. -/
theorem reference_eq (x0 : (⟨S4x2048x4096, .f32⟩ : BufTy).Contents (Elt Ideal))
    (x1 : (⟨S4096x4096, .f32⟩ : BufTy).Contents (Elt Ideal)) (x2 x3 : (⟨S4096, .f32⟩ : BufTy).Contents (Elt Ideal)) :
    val_main_v6 (F := Ideal) x0 x1 x2 x3 = Cert.Contraction.result x0 x1 x2 x3 := by
  funext i
  obtain ⟨β, σ, o, rfl⟩ : ∃ (β : Fin 4) (σ : Fin 2048) (o : Fin 4096), i = ix3 β σ o := ⟨i 0, i 1, i 2, eq_ix3 i⟩
  have e1 : ∀ k : Fin 4096, lidx_main_v3 (ix3 β σ o) k = ix3 β σ k := fun k => funext fun a => by
    match a with
    | ⟨0, _⟩ => rfl
    | ⟨1, _⟩ => rfl
    | ⟨2, _⟩ => rfl
  have e2 : ∀ k : Fin 4096, ridx_main_v3 (ix3 β σ o) k = ix2 o k := fun k => funext fun a => by
    match a with
    | ⟨0, _⟩ => rfl
    | ⟨1, _⟩ => rfl
  have e3 : ∀ k : Fin 4096, idx_main_v0 (idx_main_v1 (ix2 o k)) = ix1 o := fun k => funext fun a => by
    match a with
    | ⟨0, _⟩ => rfl
  have e4 : idx_main_v4 (idx_main_v5 (ix3 β σ o)) = ix1 o := funext fun a => by
    match a with
    | ⟨0, _⟩ => rfl
  rw [val_main_v6_apply]
  show val_main_v3 (F := Ideal) x0 x1 x2 (ix3 β σ o) + val_main_v5 (F := Ideal) x3 (ix3 β σ o) = _
  rw [val_main_v3_apply, val_main_v5_apply, val_main_v4_apply, e4]
  unfold Cert.Contraction.result
  refine congrArg (· + x3 (ix1 o)) (Finset.sum_congr rfl fun k _ => ?_)
  rw [e1 k, e2 k]
  refine congrArg (x0 (ix3 β σ k) * ·) ?_
  show x1 (ix2 o k) * val_main_v1 (F := Ideal) x2 (ix2 o k) = _
  refine congrArg (x1 (ix2 o k) * ·) ?_
  rw [val_main_v1_apply, val_main_v0_apply, e3 k]

end Cert.ReferenceIdeal.RefValue

end
-- ==== Proof.lean ====
/-
  A dequantizing matrix product against its reference, on the extended reals.

  Both programs take activations `A` [4, 2048, 4096], weights `W` [4096, 4096] (output channel by input), a scale
  and a bias per output channel, and produce, at (batch β, position σ, channel o),

      (∑ x : Fin 4096, A (β, σ, x) * (W (o, x) * scale o)) + bias o .

  The reference computes it in one contraction. The kernel flattens (β, σ) to 8192 rows, cuts rows, channels and
  the contraction axis into blocks of 1024, and for each (row block, channel block) runs through the four segments
  of the contraction axis in order, adding each segment's sum into an accumulator that starts at zero; after the
  fourth it writes the accumulator plus the bias. The narrowing of the operands before the product is the identity
  at the ideal instance, so the accumulator after the fourth segment is the sum of the four segment sums, which is
  the sum over the whole axis: addition on the extended reals is a commutative monoid and `0 + x = x`. No product
  is rearranged and nothing is cancelled, so the finiteness of the inputs is never used.

  The three frames are the generated ones (the reference's is its generated run with the result dropped); the ideal
  pass rewrote nothing, so the idealization claim is `True`.
-/
import proofs.«172999_j58128087384232_1_alg».proof.Defs
import proofs.«172999_j58128087384232_1_alg».proof.Proof.Gen.Kernel
import proofs.«172999_j58128087384232_1_alg».proof.Proof.Gen.Kernel.Skeleton
import proofs.«172999_j58128087384232_1_alg».proof.Proof.Gen.Kernel.Launch
import proofs.«172999_j58128087384232_1_alg».proof.Proof.Gen.Kernel.Points
import proofs.«172999_j58128087384232_1_alg».proof.Proof.Gen.Kernel.Frame
import proofs.«172999_j58128087384232_1_alg».proof.Proof.Gen.KernelIdeal
import proofs.«172999_j58128087384232_1_alg».proof.Proof.Gen.KernelIdeal.Skeleton
import proofs.«172999_j58128087384232_1_alg».proof.Proof.Gen.KernelIdeal.Launch
import proofs.«172999_j58128087384232_1_alg».proof.Proof.Gen.KernelIdeal.Points
import proofs.«172999_j58128087384232_1_alg».proof.Proof.Gen.KernelIdeal.Frame
import proofs.«172999_j58128087384232_1_alg».proof.Proof.Gen.ReferenceIdeal
import proofs.«172999_j58128087384232_1_alg».proof.Proof.Gen.ReferenceIdeal.Run
import proofs.«172999_j58128087384232_1_alg».proof.Proof.Gen.ReferenceIdeal.Read
import proofs.«172999_j58128087384232_1_alg».proof.Proof.Gen.Pre_finite_inputs
import proofs.«172999_j58128087384232_1_alg».proof.Proof.KernelArray
import proofs.«172999_j58128087384232_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end with the contraction plus the bias: the kernel by
    its accumulated blocks, the reference by its one contraction read index by index. -/
theorem algebraic : Cert.algebraic_KernelIdeal_ReferenceIdeal := by
  intro m ρ m' ρ' _ hagree
  refine ⟨fun c => Cert.Contraction.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
